-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S1x1 : Shape := ⟨2, ![1, 1]⟩
abbrev S5000x1 : Shape := ⟨2, ![5000, 1]⟩

abbrev nBuf : Space → Nat
  | .hbm => 61
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S1x1, .f32⟩
  | .hbm, ⟨59, _⟩ => ⟨S50000x1, .f32⟩
  | .hbm, ⟨60, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x1, .f32⟩
  | .hbm, ⟨83, _⟩ => ⟨S1x1, .f32⟩
  | .hbm, ⟨84, _⟩ => ⟨S50000x1, .f32⟩
  | .hbm, ⟨85, _⟩ => ⟨S50000x1, .f32⟩
  | .hbm, ⟨86, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Spec.lean ====
/-
  The mathematics of one graph-convolution layer and of the output head, as functions of whole arrays.

  A layer takes the neighbour means `mean` and the features `x` (both N × 128), two 128 × 128 weight matrices and a bias
  row, and produces, at node i and feature j,

      max ( (Σ_q mean(i,q)·Wl(q,j) + Σ_q x(i,q)·Wr(q,j)) + b(j), 0 ).

  The head is one more product with a 128 × 1 matrix plus a scalar bias. Everything is over the extended reals, where
  a change of float format is the identity, so the casts to a narrower format before the products play no part.

  Two facts are proved about each function. First, a tile of rows computes the rows of the whole: if a tile of M rows
  holds rows o … o+M−1 of the two row-blocked operands, the tile's entry (r, j) is the whole array's entry (o + r, j),
  because an entry depends on one row of each operand only. Second, the order in which the three summands are added is
  immaterial: adding the bias last, or between the two products, gives the same extended real, addition there being
  commutative and associative with no finiteness needed.
-/
import proofs.«161030_j49606872269110_1_alg».proof.Proof.LibDotPlain
import Idealize.ShloMosaic.Lib.ValueIdx
import Idealize.ShloMosaic.Lib.ValueLayout
import Idealize.ShloMosaic.Lib.KernelVsHost
import Idealize.ShloMosaic.Lib.IdealHost

noncomputable section

open scoped BigOperators

namespace Cert.Spec

open Idealize.ShloMosaic Idealize.ShloMosaic.ValueIdx

/-- The float zero's value. -/
abbrev zero : EReal := Ideal.ofBits .f32 0x00000000#32

/-- Entry (i, j) of the product of an N × K array with a K × D array. -/
def prod {N K D : Nat} (A : (⟨2, ![N, K]⟩ : Shape).Idx → EReal) (B : (⟨2, ![K, D]⟩ : Shape).Idx → EReal)
    (i : Fin N) (j : Fin D) : EReal := ∑ q : Fin K, A (ix2 i q) * B (ix2 q j)

/-- An entry of a product reads one row of the left factor: two left factors that agree on the rows i and i'
    give the same entry. -/
theorem prod_row {N N' K D : Nat} (A : (⟨2, ![N, K]⟩ : Shape).Idx → EReal) (A' : (⟨2, ![N', K]⟩ : Shape).Idx → EReal)
    (B : (⟨2, ![K, D]⟩ : Shape).Idx → EReal) (i : Fin N) (i' : Fin N') (j : Fin D)
    (h : ∀ q : Fin K, A' (ix2 i' q) = A (ix2 i q)) : prod A' B i' j = prod A B i j :=
  Finset.sum_congr rfl fun q _ => by rw [h q]

/-- One layer at entry (i, j), from the rows i of the two row operands. -/
def layerAt {N : Nat} (mean x : (⟨2, ![N, 128]⟩ : Shape).Idx → EReal) (Wl Wr : (⟨2, ![128, 128]⟩ : Shape).Idx → EReal)
    (b : (⟨2, ![1, 128]⟩ : Shape).Idx → EReal) (i : Fin N) (j : Fin 128) : EReal :=
  max ((prod mean Wl i j + prod x Wr i j) + b (ix2 (0 : Fin 1) j)) zero

/-- One layer as a whole array. -/
def layer {N : Nat} (mean x : (⟨2, ![N, 128]⟩ : Shape).Idx → EReal) (Wl Wr : (⟨2, ![128, 128]⟩ : Shape).Idx → EReal)
    (b : (⟨2, ![1, 128]⟩ : Shape).Idx → EReal) : (⟨2, ![N, 128]⟩ : Shape).Idx → EReal :=
  fun e => layerAt mean x Wl Wr b (e 0 : Fin N) (e 1 : Fin 128)

theorem layer_ix2 {N : Nat} (mean x : (⟨2, ![N, 128]⟩ : Shape).Idx → EReal) (Wl Wr : (⟨2, ![128, 128]⟩ : Shape).Idx → EReal)
    (b : (⟨2, ![1, 128]⟩ : Shape).Idx → EReal) (i : Fin N) (j : Fin 128) :
    layer mean x Wl Wr b (ix2 i j) = layerAt mean x Wl Wr b i j := rfl

/-- A tile of rows computes the rows of the whole. -/
theorem layerAt_row {N M : Nat} (mean x : (⟨2, ![N, 128]⟩ : Shape).Idx → EReal) (mean' x' : (⟨2, ![M, 128]⟩ : Shape).Idx → EReal)
    (Wl Wr : (⟨2, ![128, 128]⟩ : Shape).Idx → EReal) (b : (⟨2, ![1, 128]⟩ : Shape).Idx → EReal) (i : Fin N) (r : Fin M) (j : Fin 128)
    (hm : ∀ q : Fin 128, mean' (ix2 r q) = mean (ix2 i q)) (hx : ∀ q : Fin 128, x' (ix2 r q) = x (ix2 i q)) :
    layerAt mean' x' Wl Wr b r j = layerAt mean x Wl Wr b i j := by
  unfold layerAt
  rw [prod_row mean mean' Wl i r j hm, prod_row x x' Wr i r j hx]

/-- The output head at entry (i, j). -/
def headAt {N : Nat} (h : (⟨2, ![N, 128]⟩ : Shape).Idx → EReal) (W : (⟨2, ![128, 1]⟩ : Shape).Idx → EReal)
    (b : (⟨2, ![1, 1]⟩ : Shape).Idx → EReal) (i : Fin N) (j : Fin 1) : EReal :=
  prod h W i j + b (ix2 (0 : Fin 1) j)

/-- The output head as a whole array. -/
def head {N : Nat} (h : (⟨2, ![N, 128]⟩ : Shape).Idx → EReal) (W : (⟨2, ![128, 1]⟩ : Shape).Idx → EReal)
    (b : (⟨2, ![1, 1]⟩ : Shape).Idx → EReal) : (⟨2, ![N, 1]⟩ : Shape).Idx → EReal :=
  fun e => headAt h W b (e 0 : Fin N) (e 1 : Fin 1)

theorem head_ix2 {N : Nat} (h : (⟨2, ![N, 128]⟩ : Shape).Idx → EReal) (W : (⟨2, ![128, 1]⟩ : Shape).Idx → EReal)
    (b : (⟨2, ![1, 1]⟩ : Shape).Idx → EReal) (i : Fin N) (j : Fin 1) : head h W b (ix2 i j) = headAt h W b i j := rfl

theorem headAt_row {N M : Nat} (h : (⟨2, ![N, 128]⟩ : Shape).Idx → EReal) (h' : (⟨2, ![M, 128]⟩ : Shape).Idx → EReal)
    (W : (⟨2, ![128, 1]⟩ : Shape).Idx → EReal) (b : (⟨2, ![1, 1]⟩ : Shape).Idx → EReal) (i : Fin N) (r : Fin M) (j : Fin 1)
    (hh : ∀ q : Fin 128, h' (ix2 r q) = h (ix2 i q)) : headAt h' W b r j = headAt h W b i j := by
  unfold headAt
  rw [prod_row h h' W i r j hh]

/-! ## A vector as a one-row array -/

/-- A vector of n entries as the 1 × n array whose one row it is. -/
def rowOf {n : Nat} (b : (⟨1, ![n]⟩ : Shape).Idx → EReal) : (⟨2, ![1, n]⟩ : Shape).Idx → EReal :=
  fun e => b (ix1 (e 1 : Fin n))

theorem rowOf_ix2 {n : Nat} (b : (⟨1, ![n]⟩ : Shape).Idx → EReal) (u : Fin 1) (j : Fin n) : rowOf b (ix2 u j) = b (ix1 j) := rfl

/-- The vector reshaped to 1 × n is that array. -/
theorem shapeCast_eq_rowOf {n : Nat} (b : (⟨1, ![n]⟩ : Shape).Idx → EReal) (h : (⟨1, ![n]⟩ : Shape).ShapeCasts ⟨2, ![1, n]⟩) :
    shapeCast ⟨2, ![1, n]⟩ b h = rowOf b := by
  funext e
  obtain ⟨u, j, rfl⟩ : ∃ (u : Fin 1) (j : Fin n), e = ix2 u j := ⟨e 0, e 1, eq_ix2 e⟩
  rw [shapeCast_a_1a_apply, rowOf_ix2]

/-- The vector broadcast along axis 1 of a 1 × n array is that array. -/
theorem broadcastInDim_eq_rowOf {n : Nat} (b : (⟨1, ![n]⟩ : Shape).Idx → EReal)
    (h : (⟨1, ![n]⟩ : Shape).BroadcastsInDim ⟨2, ![1, n]⟩ ![1]) :
    broadcastInDim ⟨2, ![1, n]⟩ ![1] h b = rowOf b := by
  funext e
  obtain ⟨u, j, rfl⟩ : ∃ (u : Fin 1) (j : Fin n), e = ix2 u j := ⟨e 0, e 1, eq_ix2 e⟩
  rw [rowOf_ix2]
  refine broadcastInDim_apply ![1] h b (ix2 u j) (ix1 j) fun a => ?_
  match a with
  | ⟨0, _⟩ =>
    show j.val = if n = 1 then 0 else j.val
    split
    · have := j.isLt; omega
    · rfl

end Cert.Spec

end
-- ==== Proof.KPay.lean ====
/-
  What each kernel body stores, read at one entry of its tile.

  The two layer bodies load a 5000-row tile of the neighbour means and of the features, the two weight matrices whole and
  the bias row, cast the four matrices to a narrower float format (the identity on extended reals), form the two
  products into all-zero accumulators, add them, add the bias row laid along every row of the tile, and take the
  maximum with zero. At entry (r, j) of the tile that is the layer's rule applied to rows r of the two tiles. The head's
  body forms one product with the 128 × 1 matrix and adds the 1 × 1 bias laid down the column.
-/
import proofs.«161030_j49606872269110_1_alg».proof.Proof.Gen.KernelIdeal.Skeleton
import proofs.«161030_j49606872269110_1_alg».proof.Proof.Spec
import Idealize.ShloMosaic.Lib.Pipeline.Value

noncomputable section

open scoped BigOperators

namespace Cert.KPay

open Cert.KernelIdeal Cert.KernelIdeal.Gen Idealize.ShloMosaic Idealize.ShloMosaic.ValueIdx Cert.Spec

/-- The layer bodies' product is the plain 5000 × 128 by 128 × 128 one. -/
theorem dotTile : dot_S5000x128_S128x128_S5000x128_1_0_0_1_n_n = DotDims.plain 5000 128 128 := rfl

/-- The head body's product is the plain 5000 × 128 by 128 × 1 one. -/
theorem dotHead : dot_S5000x128_S128x1_S5000x1_1_0_0_1_n_n = DotDims.plain 5000 128 1 := rfl

/-- A tile's product into the zero accumulator at entry (r, j): the sum over q of A(r, q) · B(q, j). -/
theorem tile_mm {φ₁ φ₂ : FTy} (A : FVec Ideal S5000x128 φ₁) (B : FVec Ideal S128x128 φ₂) (r : Fin 5000) (j : Fin 128) :
    matmul (DotDims.plain 5000 128 128) none A B (constant S5000x128 .f32 0x00000000#32) (ix2 r j)
      = ∑ q : Fin 128, A (ix2 r q) * B (ix2 q j) :=
  LibDotPlain.matmul_zero_plain 5000 128 128 none A B r j

/-- The head's product into the zero accumulator at entry (r, j). -/
theorem head_mm {φ₁ φ₂ : FTy} (A : FVec Ideal S5000x128 φ₁) (B : FVec Ideal S128x1 φ₂) (r : Fin 5000) (j : Fin 1) :
    matmul (DotDims.plain 5000 128 1) none A B (constant S5000x1 .f32 0x00000000#32) (ix2 r j)
      = ∑ q : Fin 128, A (ix2 r q) * B (ix2 q j) :=
  LibDotPlain.matmul_zero_plain 5000 128 1 none A B r j

/-- The first layer's stored value at (r, j) is the layer's rule on rows r of its two tiles. -/
theorem pay0_apply (x0 x1 : Vec Ideal S5000x128 .f32) (x2 x3 : Vec Ideal S128x128 .f32) (x4 : Vec Ideal S1x128 .f32)
    (r : Fin 5000) (j : Fin 128) :
    k0_pay1 (F := Ideal) x0 x1 x2 x3 x4 (ix2 r j) = layerAt x0 x1 x2 x3 x4 r j := by
  unfold k0_pay1 layerAt prod
  rw [maximumf_apply, addf_apply, addf_apply, dotTile, tile_mm, tile_mm, broadcastTo_1b_ab_apply]
  simp only [truncf_apply, shapeCast_self, broadcast_apply]
  rfl

/-- The second layer's stored value at (r, j): the same rule. -/
theorem pay1_apply (x0 x1 : Vec Ideal S5000x128 .f32) (x2 x3 : Vec Ideal S128x128 .f32) (x4 : Vec Ideal S1x128 .f32)
    (r : Fin 5000) (j : Fin 128) :
    k1_pay1 (F := Ideal) x0 x1 x2 x3 x4 (ix2 r j) = layerAt x0 x1 x2 x3 x4 r j := by
  unfold k1_pay1 layerAt prod
  rw [maximumf_apply, addf_apply, addf_apply, dotTile, tile_mm, tile_mm, broadcastTo_1b_ab_apply]
  simp only [truncf_apply, shapeCast_self, broadcast_apply]
  rfl

/-- The head's stored value at (r, j): the product's entry plus the scalar bias. -/
theorem pay2_apply (x0 : Vec Ideal S5000x128 .f32) (x1 : Vec Ideal S128x1 .f32) (x2 : Vec Ideal S1x1 .f32)
    (r : Fin 5000) (j : Fin 1) :
    k2_pay1 (F := Ideal) x0 x1 x2 (ix2 r j) = headAt x0 x1 x2 r j := by
  unfold k2_pay1 headAt prod
  rw [addf_apply, dotHead, head_mm, broadcastTo_1b_ab_apply]
  simp only [truncf_apply, shapeCast_self]

end Cert.KPay

end
-- ==== Proof.KBlocks0.lean ====
/-
  The first layer's array after its region, as one function of the arrays the region finds.

  The region runs its body at ten grid points. Point t stages rows 5000·t … 5000·t + 4999 of the neighbour means and of
  the features, the two weight matrices and the bias row whole, and writes back rows 5000·t … 5000·t + 4999 of the
  output. What the body stores at (r, j) is the layer's rule on rows r of its two tiles, which are rows 5000·t + r of the
  two arrays; so what point t writes back is its block of the layer of the whole arrays. The ten blocks cover all 50000
  rows (row i lies in block i / 5000), hence after the region the output array is the layer of the whole arrays.
-/
import proofs.«161030_j49606872269110_1_alg».proof.Proof.Gen.KernelIdeal.Frame
import proofs.«161030_j49606872269110_1_alg».proof.Proof.KPay
import Idealize.ShloMosaic.Lib.Pipeline.Value

set_option maxRecDepth 16384

noncomputable section

open scoped BigOperators

namespace Cert.KBlocks0

open Cert.KernelIdeal Cert.KernelIdeal.Gen Idealize.ShloMosaic Idealize.ShloMosaic.TcCoe Idealize.SL.Sem
open Idealize.ShloMosaic.ValueIdx Cert.Spec Cert.KPay
open Idealize.ShloMosaic.Pipeline (Dat)

variable (V : (c : Dev nD) → (b : Ref sig .tc) → Buf (Elt Ideal) ((c : Thread nD τ).loc b))

/-- The zero offsets of a block's rectangle, as a function. -/
theorem hz : (![0, 0] : Fin 2 → Nat) = fun _ => 0 := funext fun a => by fin_cases a <;> rfl

/-- The index maps over the grid: the three row-blocked windows are at block (t, 0), the three whole ones at (0, 0). -/
theorem idx0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- The grid has ten points. -/
theorem lt0 (t : Fin cfg0.N) : t.val < 10 := by
  have h := t.isLt
  have e : cfg0.N = 10 := N_0
  omega

/-- Row r of point t's tile is row 5000·t + r of the array. -/
def row0 (t : Fin cfg0.N) (r : Fin 5000) : Fin 50000 := ⟨t.val * 5000 + r.val, by have := lt0 t; have := r.isLt; omega⟩

/-- The five arrays the region reads, as it finds them. -/
abbrev mean0 (c : Dev nD) : S50000x128.Idx → EReal := V c main_v22
abbrev feat0 (c : Dev nD) : S50000x128.Idx → EReal := V c main_arg0
abbrev wl0 (c : Dev nD) : S128x128.Idx → EReal := V c main_arg2
abbrev wr0 (c : Dev nD) : S128x128.Idx → EReal := V c main_arg4
abbrev bias0 (c : Dev nD) : S1x128.Idx → EReal := V c main_v23

/-- Their blocks at point t. -/
abbrev b0_0 (c : Dev nD) (t : Fin cfg0.N) : Vec Ideal S5000x128 .f32 := iblk0 V c 0 t
abbrev b0_1 (c : Dev nD) (t : Fin cfg0.N) : Vec Ideal S5000x128 .f32 := iblk0 V c 1 t
abbrev b0_2 (c : Dev nD) (t : Fin cfg0.N) : Vec Ideal S128x128 .f32 := iblk0 V c 2 t
abbrev b0_3 (c : Dev nD) (t : Fin cfg0.N) : Vec Ideal S128x128 .f32 := iblk0 V c 3 t
abbrev b0_4 (c : Dev nD) (t : Fin cfg0.N) : Vec Ideal S1x128 .f32 := iblk0 V c 4 t

/-- Entry (r, q) of the means' block at point t is the array's entry (5000·t + r, q). -/
theorem emb0_0 (t : Fin cfg0.N) (r : Fin 5000) (q : Fin 128) :
    ((cfg0.win 0).blk t).view.emb (ix2 r q : S5000x128.Idx) = (ix2 (row0 t r) q : S50000x128.Idx) := by
  obtain ⟨e0, e1, -⟩ := idx0 t
  funext a; apply Fin.ext
  match a with
  | ⟨0, _⟩ => show win0_0.index t (0 : Fin 2) * 5000 + 1 * r.val = t.val * 5000 + r.val; omega
  | ⟨1, _⟩ => show win0_0.index t (1 : Fin 2) * 128 + 1 * q.val = q.val; omega

theorem blk0_0 (c : Dev nD) (t : Fin cfg0.N) (r : Fin 5000) (q : Fin 128) :
    b0_0 V c t (ix2 r q) = mean0 V c (ix2 (row0 t r) q) := by
  show V c main_v22 (((cfg0.win 0).blk t).view.emb (ix2 r q : S5000x128.Idx)) = _
  rw [emb0_0]

/-- The same for the features' block. -/
theorem emb0_1 (t : Fin cfg0.N) (r : Fin 5000) (q : Fin 128) :
    ((cfg0.win 1).blk t).view.emb (ix2 r q : S5000x128.Idx) = (ix2 (row0 t r) q : S50000x128.Idx) := by
  obtain ⟨-, -, e0, e1, -⟩ := idx0 t
  funext a; apply Fin.ext
  match a with
  | ⟨0, _⟩ => show win0_1.index t (0 : Fin 2) * 5000 + 1 * r.val = t.val * 5000 + r.val; omega
  | ⟨1, _⟩ => show win0_1.index t (1 : Fin 2) * 128 + 1 * q.val = q.val; omega

theorem blk0_1 (c : Dev nD) (t : Fin cfg0.N) (r : Fin 5000) (q : Fin 128) :
    b0_1 V c t (ix2 r q) = feat0 V c (ix2 (row0 t r) q) := by
  show V c main_arg0 (((cfg0.win 1).blk t).view.emb (ix2 r q : S5000x128.Idx)) = _
  rw [emb0_1]

/-- Entry (r, j) of the output's block at point t is the array's entry (5000·t + r, j). -/
theorem emb0_5 (t : Fin cfg0.N) (r : Fin 5000) (j : Fin 128) :
    ((cfg0.win 5).blk t).view.emb (ix2 r j : S5000x128.Idx) = (ix2 (row0 t r) j : S50000x128.Idx) := by
  obtain ⟨-, -, -, -, -, -, -, -, -, -, e0, e1⟩ := idx0 t
  funext a; apply Fin.ext
  match a with
  | ⟨0, _⟩ => show win0_5.index t (0 : Fin 2) * 5000 + 1 * r.val = t.val * 5000 + r.val; omega
  | ⟨1, _⟩ => show win0_5.index t (1 : Fin 2) * 128 + 1 * j.val = j.val; omega

/-- A whole window's block at any point is the array. -/
theorem blk0_2 (c : Dev nD) (t : Fin cfg0.N) : b0_2 V c t = wl0 V c := by
  obtain ⟨-, -, -, -, e0, e1, -⟩ := idx0 t
  funext y
  show V c main_arg2 (((cfg0.win 2).blk t).view.emb y) = V c main_arg2 y
  refine congrArg (V c main_arg2) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk0_3 (c : Dev nD) (t : Fin cfg0.N) : b0_3 V c t = wr0 V c := by
  obtain ⟨-, -, -, -, -, -, e0, e1, -⟩ := idx0 t
  funext y
  show V c main_arg4 (((cfg0.win 3).blk t).view.emb y) = V c main_arg4 y
  refine congrArg (V c main_arg4) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk0_4 (c : Dev nD) (t : Fin cfg0.N) : b0_4 V c t = bias0 V c := by
  obtain ⟨-, -, -, -, -, -, -, -, e0, e1, -⟩ := idx0 t
  funext y
  show V c main_v23 (((cfg0.win 4).blk t).view.emb y) = V c main_v23 y
  refine congrArg (V c main_v23) ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- What point t writes back is its block of the layer of the arrays as the region finds them. -/
theorem flushed0 (c : Dev nD) (t : Fin cfg0.N) :
    (dat0 V c).flushed 5 t = ((cfg0.win 5).blk t).view.read (Elt Ideal)
      (layer (N := 50000) (mean0 V c) (feat0 V c) (wl0 V c) (wr0 V c) (bias0 V c)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext y
  obtain ⟨r, j, rfl⟩ : ∃ (r : Fin 5000) (j : Fin 128), y = ix2 r j := ⟨y 0, y 1, eq_ix2 y⟩
  show k0_pay1 (F := Ideal) (b0_0 V c t) (b0_1 V c t) (b0_2 V c t) (b0_3 V c t) (b0_4 V c t) (ix2 r j)
    = layer (N := 50000) (mean0 V c) (feat0 V c) (wl0 V c) (wr0 V c) (bias0 V c) (((cfg0.win 5).blk t).view.emb (ix2 r j : S5000x128.Idx))
  rw [emb0_5, layer_ix2]
  refine (pay0_apply (b0_0 V c t) (b0_1 V c t) (b0_2 V c t) (b0_3 V c t) (b0_4 V c t) r j).trans ?_
  rw [blk0_2, blk0_3, blk0_4]
  exact layerAt_row (mean0 V c) (feat0 V c) (b0_0 V c t) (b0_1 V c t) (wl0 V c) (wr0 V c) (bias0 V c) (row0 t r) r j
    (fun q => blk0_0 V c t r q) (fun q => blk0_1 V c t r q)

/-- An index of the output array is in point t's block iff each coordinate is in the block's range. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every index of the output array is in some point's block: row i is in block i / 5000. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by omega⟩
  have ht : t.val = (i 0).val / 5000 := rfl
  obtain ⟨-, -, -, -, -, -, -, -, -, -, e0, e1⟩ := idx0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the layer of the arrays as the region finds them. -/
theorem final0 (c : Dev nD) : (dat0 V c).arrAt 5 cfg0.N
    = layer (N := 50000) (mean0 V c) (feat0 V c) (wl0 V c) (wr0 V c) (bias0 V c) :=
  (dat0 V c).arrAt_eq_of_cover 5 _ (fun t _ => flushed0 V c t) cover0

end Cert.KBlocks0

end
-- ==== Proof.KBlocks1.lean ====
/-
  The second layer's array after its region, as one function of the arrays the region finds.

  The region has the first layer's shape: ten grid points, point t staging rows 5000·t … 5000·t + 4999 of the neighbour
  means (now means of the first layer's output) and of the first layer's output itself, the second pair of weight
  matrices and the second bias row whole, and writing back the same rows of its output. As there, an entry of a tile's
  result depends on one row of each row operand, the tiles' rows are the arrays' rows, and the ten blocks cover the
  array; so after the region the output array is the layer of the whole arrays.
-/
import proofs.«161030_j49606872269110_1_alg».proof.Proof.Gen.KernelIdeal.Frame
import proofs.«161030_j49606872269110_1_alg».proof.Proof.KPay
import Idealize.ShloMosaic.Lib.Pipeline.Value

set_option maxRecDepth 16384

noncomputable section

open scoped BigOperators

namespace Cert.KBlocks1

open Cert.KernelIdeal Cert.KernelIdeal.Gen Idealize.ShloMosaic Idealize.ShloMosaic.TcCoe Idealize.SL.Sem
open Idealize.ShloMosaic.ValueIdx Cert.Spec Cert.KPay
open Idealize.ShloMosaic.Pipeline (Dat)

variable (V : (c : Dev nD) → (b : Ref sig .tc) → Buf (Elt Ideal) ((c : Thread nD τ).loc b))

/-- The zero offsets of a block's rectangle, as a function. -/
theorem hz : (![0, 0] : Fin 2 → Nat) = fun _ => 0 := funext fun a => by fin_cases a <;> rfl

/-- The index maps over the grid: the three row-blocked windows are at block (t, 0), the three whole ones at (0, 0). -/
theorem idx1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = t.val ∧ win1_5.index t (1 : Fin 2) = 0 :=
  (by decide +kernel : ∀ t : Fin grid1.N, _)

/-- The grid has ten points. -/
theorem lt1 (t : Fin cfg1.N) : t.val < 10 := by
  have h := t.isLt
  have e : cfg1.N = 10 := N_1
  omega

/-- Row r of point t's tile is row 5000·t + r of the array. -/
def row1 (t : Fin cfg1.N) (r : Fin 5000) : Fin 50000 := ⟨t.val * 5000 + r.val, by have := lt1 t; have := r.isLt; omega⟩

/-- The five arrays the region reads, as it finds them. -/
abbrev mean1 (c : Dev nD) : S50000x128.Idx → EReal := V c main_v36
abbrev feat1 (c : Dev nD) : S50000x128.Idx → EReal := V c main_v24
abbrev wl1 (c : Dev nD) : S128x128.Idx → EReal := V c main_arg5
abbrev wr1 (c : Dev nD) : S128x128.Idx → EReal := V c main_arg7
abbrev bias1 (c : Dev nD) : S1x128.Idx → EReal := V c main_v37

/-- Their blocks at point t. -/
abbrev b1_0 (c : Dev nD) (t : Fin cfg1.N) : Vec Ideal S5000x128 .f32 := iblk1 V c 0 t
abbrev b1_1 (c : Dev nD) (t : Fin cfg1.N) : Vec Ideal S5000x128 .f32 := iblk1 V c 1 t
abbrev b1_2 (c : Dev nD) (t : Fin cfg1.N) : Vec Ideal S128x128 .f32 := iblk1 V c 2 t
abbrev b1_3 (c : Dev nD) (t : Fin cfg1.N) : Vec Ideal S128x128 .f32 := iblk1 V c 3 t
abbrev b1_4 (c : Dev nD) (t : Fin cfg1.N) : Vec Ideal S1x128 .f32 := iblk1 V c 4 t

/-- Entry (r, q) of the means' block at point t is the array's entry (5000·t + r, q). -/
theorem emb1_0 (t : Fin cfg1.N) (r : Fin 5000) (q : Fin 128) :
    ((cfg1.win 0).blk t).view.emb (ix2 r q : S5000x128.Idx) = (ix2 (row1 t r) q : S50000x128.Idx) := by
  obtain ⟨e0, e1, -⟩ := idx1 t
  funext a; apply Fin.ext
  match a with
  | ⟨0, _⟩ => show win1_0.index t (0 : Fin 2) * 5000 + 1 * r.val = t.val * 5000 + r.val; omega
  | ⟨1, _⟩ => show win1_0.index t (1 : Fin 2) * 128 + 1 * q.val = q.val; omega

theorem blk1_0 (c : Dev nD) (t : Fin cfg1.N) (r : Fin 5000) (q : Fin 128) :
    b1_0 V c t (ix2 r q) = mean1 V c (ix2 (row1 t r) q) := by
  show V c main_v36 (((cfg1.win 0).blk t).view.emb (ix2 r q : S5000x128.Idx)) = _
  rw [emb1_0]

/-- The same for the block of the first layer's output. -/
theorem emb1_1 (t : Fin cfg1.N) (r : Fin 5000) (q : Fin 128) :
    ((cfg1.win 1).blk t).view.emb (ix2 r q : S5000x128.Idx) = (ix2 (row1 t r) q : S50000x128.Idx) := by
  obtain ⟨-, -, e0, e1, -⟩ := idx1 t
  funext a; apply Fin.ext
  match a with
  | ⟨0, _⟩ => show win1_1.index t (0 : Fin 2) * 5000 + 1 * r.val = t.val * 5000 + r.val; omega
  | ⟨1, _⟩ => show win1_1.index t (1 : Fin 2) * 128 + 1 * q.val = q.val; omega

theorem blk1_1 (c : Dev nD) (t : Fin cfg1.N) (r : Fin 5000) (q : Fin 128) :
    b1_1 V c t (ix2 r q) = feat1 V c (ix2 (row1 t r) q) := by
  show V c main_v24 (((cfg1.win 1).blk t).view.emb (ix2 r q : S5000x128.Idx)) = _
  rw [emb1_1]

/-- Entry (r, j) of the output's block at point t is the array's entry (5000·t + r, j). -/
theorem emb1_5 (t : Fin cfg1.N) (r : Fin 5000) (j : Fin 128) :
    ((cfg1.win 5).blk t).view.emb (ix2 r j : S5000x128.Idx) = (ix2 (row1 t r) j : S50000x128.Idx) := by
  obtain ⟨-, -, -, -, -, -, -, -, -, -, e0, e1⟩ := idx1 t
  funext a; apply Fin.ext
  match a with
  | ⟨0, _⟩ => show win1_5.index t (0 : Fin 2) * 5000 + 1 * r.val = t.val * 5000 + r.val; omega
  | ⟨1, _⟩ => show win1_5.index t (1 : Fin 2) * 128 + 1 * j.val = j.val; omega

/-- A whole window's block at any point is the array. -/
theorem blk1_2 (c : Dev nD) (t : Fin cfg1.N) : b1_2 V c t = wl1 V c := by
  obtain ⟨-, -, -, -, e0, e1, -⟩ := idx1 t
  funext y
  show V c main_arg5 (((cfg1.win 2).blk t).view.emb y) = V c main_arg5 y
  refine congrArg (V c main_arg5) ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem blk1_3 (c : Dev nD) (t : Fin cfg1.N) : b1_3 V c t = wr1 V c := by
  obtain ⟨-, -, -, -, -, -, e0, e1, -⟩ := idx1 t
  funext y
  show V c main_arg7 (((cfg1.win 3).blk t).view.emb y) = V c main_arg7 y
  refine congrArg (V c main_arg7) ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blk1_4 (c : Dev nD) (t : Fin cfg1.N) : b1_4 V c t = bias1 V c := by
  obtain ⟨-, -, -, -, -, -, -, -, e0, e1, -⟩ := idx1 t
  funext y
  show V c main_v37 (((cfg1.win 4).blk t).view.emb y) = V c main_v37 y
  refine congrArg (V c main_v37) ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- What point t writes back is its block of the layer of the arrays as the region finds them. -/
theorem flushed1 (c : Dev nD) (t : Fin cfg1.N) :
    (dat1 V c).flushed 5 t = ((cfg1.win 5).blk t).view.read (Elt Ideal)
      (layer (N := 50000) (mean1 V c) (feat1 V c) (wl1 V c) (wr1 V c) (bias1 V c)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext y
  obtain ⟨r, j, rfl⟩ : ∃ (r : Fin 5000) (j : Fin 128), y = ix2 r j := ⟨y 0, y 1, eq_ix2 y⟩
  show k1_pay1 (F := Ideal) (b1_0 V c t) (b1_1 V c t) (b1_2 V c t) (b1_3 V c t) (b1_4 V c t) (ix2 r j)
    = layer (N := 50000) (mean1 V c) (feat1 V c) (wl1 V c) (wr1 V c) (bias1 V c) (((cfg1.win 5).blk t).view.emb (ix2 r j : S5000x128.Idx))
  rw [emb1_5, layer_ix2]
  refine (pay1_apply (b1_0 V c t) (b1_1 V c t) (b1_2 V c t) (b1_3 V c t) (b1_4 V c t) r j).trans ?_
  rw [blk1_2, blk1_3, blk1_4]
  exact layerAt_row (mean1 V c) (feat1 V c) (b1_0 V c t) (b1_1 V c t) (wl1 V c) (wr1 V c) (bias1 V c) (row1 t r) r j
    (fun q => blk1_0 V c t r q) (fun q => blk1_1 V c t r q)

/-- An index of the output array is in point t's block iff each coordinate is in the block's range. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- Every index of the output array is in some point's block: row i is in block i / 5000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by omega⟩
  have ht : t.val = (i 0).val / 5000 := rfl
  obtain ⟨-, -, -, -, -, -, -, -, -, -, e0, e1⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the layer of the arrays as the region finds them. -/
theorem final1 (c : Dev nD) : (dat1 V c).arrAt 5 cfg1.N
    = layer (N := 50000) (mean1 V c) (feat1 V c) (wl1 V c) (wr1 V c) (bias1 V c) :=
  (dat1 V c).arrAt_eq_of_cover 5 _ (fun t _ => flushed1 V c t) cover1

end Cert.KBlocks1

end
-- ==== Proof.KBlocks2.lean ====
/-
  The head's array after its region, as one function of the arrays the region finds.

  Ten grid points; point t stages rows 5000·t … 5000·t + 4999 of the second layer's output, the 128 × 1 matrix and the
  1 × 1 bias whole, and writes back rows 5000·t … 5000·t + 4999 of the 50000 × 1 output. The body's entry (r, 0) is the
  product of row r of the tile with the matrix's one column, plus the bias; the tile's rows are the array's rows and the
  ten blocks cover the output, so after the region the output array is the head of the whole arrays.
-/
import proofs.«161030_j49606872269110_1_alg».proof.Proof.Gen.KernelIdeal.Frame
import proofs.«161030_j49606872269110_1_alg».proof.Proof.KPay
import Idealize.ShloMosaic.Lib.Pipeline.Value

set_option maxRecDepth 16384

noncomputable section

open scoped BigOperators

namespace Cert.KBlocks2

open Cert.KernelIdeal Cert.KernelIdeal.Gen Idealize.ShloMosaic Idealize.ShloMosaic.TcCoe Idealize.SL.Sem
open Idealize.ShloMosaic.ValueIdx Cert.Spec Cert.KPay
open Idealize.ShloMosaic.Pipeline (Dat)

variable (V : (c : Dev nD) → (b : Ref sig .tc) → Buf (Elt Ideal) ((c : Thread nD τ).loc b))

/-- The zero offsets of a block's rectangle, as a function. -/
theorem hz : (![0, 0] : Fin 2 → Nat) = fun _ => 0 := funext fun a => by fin_cases a <;> rfl

/-- The index maps over the grid: the input rows and the output are at block (t, 0), the two whole windows at (0, 0). -/
theorem idx2 : ∀ t : Fin cfg2.N,
    win2_0.index t (0 : Fin 2) = t.val ∧ win2_0.index t (1 : Fin 2) = 0
  ∧ win2_1.index t (0 : Fin 2) = 0 ∧ win2_1.index t (1 : Fin 2) = 0
  ∧ win2_2.index t (0 : Fin 2) = 0 ∧ win2_2.index t (1 : Fin 2) = 0
  ∧ win2_3.index t (0 : Fin 2) = t.val ∧ win2_3.index t (1 : Fin 2) = 0 :=
  (by decide +kernel : ∀ t : Fin grid2.N, _)

/-- The grid has ten points. -/
theorem lt2 (t : Fin cfg2.N) : t.val < 10 := by
  have h := t.isLt
  have e : cfg2.N = 10 := N_2
  omega

/-- Row r of point t's tile is row 5000·t + r of the array. -/
def row2 (t : Fin cfg2.N) (r : Fin 5000) : Fin 50000 := ⟨t.val * 5000 + r.val, by have := lt2 t; have := r.isLt; omega⟩

/-- The three arrays the region reads, as it finds them. -/
abbrev feat2 (c : Dev nD) : S50000x128.Idx → EReal := V c main_v38
abbrev w2 (c : Dev nD) : S128x1.Idx → EReal := V c main_arg8
abbrev bias2 (c : Dev nD) : S1x1.Idx → EReal := V c main_v39

/-- Their blocks at point t. -/
abbrev b2_0 (c : Dev nD) (t : Fin cfg2.N) : Vec Ideal S5000x128 .f32 := iblk2 V c 0 t
abbrev b2_1 (c : Dev nD) (t : Fin cfg2.N) : Vec Ideal S128x1 .f32 := iblk2 V c 1 t
abbrev b2_2 (c : Dev nD) (t : Fin cfg2.N) : Vec Ideal S1x1 .f32 := iblk2 V c 2 t

/-- Entry (r, q) of the input block at point t is the array's entry (5000·t + r, q). -/
theorem emb2_0 (t : Fin cfg2.N) (r : Fin 5000) (q : Fin 128) :
    ((cfg2.win 0).blk t).view.emb (ix2 r q : S5000x128.Idx) = (ix2 (row2 t r) q : S50000x128.Idx) := by
  obtain ⟨e0, e1, -⟩ := idx2 t
  funext a; apply Fin.ext
  match a with
  | ⟨0, _⟩ => show win2_0.index t (0 : Fin 2) * 5000 + 1 * r.val = t.val * 5000 + r.val; omega
  | ⟨1, _⟩ => show win2_0.index t (1 : Fin 2) * 128 + 1 * q.val = q.val; omega

theorem blk2_0 (c : Dev nD) (t : Fin cfg2.N) (r : Fin 5000) (q : Fin 128) :
    b2_0 V c t (ix2 r q) = feat2 V c (ix2 (row2 t r) q) := by
  show V c main_v38 (((cfg2.win 0).blk t).view.emb (ix2 r q : S5000x128.Idx)) = _
  rw [emb2_0]

/-- Entry (r, j) of the output's block at point t is the array's entry (5000·t + r, j). -/
theorem emb2_3 (t : Fin cfg2.N) (r : Fin 5000) (j : Fin 1) :
    ((cfg2.win 3).blk t).view.emb (ix2 r j : S5000x1.Idx) = (ix2 (row2 t r) j : S50000x1.Idx) := by
  obtain ⟨-, -, -, -, -, -, e0, e1⟩ := idx2 t
  funext a; apply Fin.ext
  match a with
  | ⟨0, _⟩ => show win2_3.index t (0 : Fin 2) * 5000 + 1 * r.val = t.val * 5000 + r.val; omega
  | ⟨1, _⟩ => show win2_3.index t (1 : Fin 2) * 1 + 1 * j.val = j.val; omega

/-- A whole window's block at any point is the array. -/
theorem blk2_1 (c : Dev nD) (t : Fin cfg2.N) : b2_1 V c t = w2 V c := by
  obtain ⟨-, -, e0, e1, -⟩ := idx2 t
  funext y
  show V c main_arg8 (((cfg2.win 1).blk t).view.emb y) = V c main_arg8 y
  refine congrArg (V c main_arg8) ?_
  funext a; apply Fin.ext
  match a with
  | ⟨0, _⟩ => show win2_1.index t (0 : Fin 2) * 128 + 1 * (y 0).val = (y 0).val; omega
  | ⟨1, _⟩ => show win2_1.index t (1 : Fin 2) * 1 + 1 * (y 1).val = (y 1).val; omega

theorem blk2_2 (c : Dev nD) (t : Fin cfg2.N) : b2_2 V c t = bias2 V c := by
  obtain ⟨-, -, -, -, e0, e1, -⟩ := idx2 t
  funext y
  show V c main_v39 (((cfg2.win 2).blk t).view.emb y) = V c main_v39 y
  refine congrArg (V c main_v39) ?_
  funext a; apply Fin.ext
  match a with
  | ⟨0, _⟩ => show win2_2.index t (0 : Fin 2) * 1 + 1 * (y 0).val = (y 0).val; omega
  | ⟨1, _⟩ => show win2_2.index t (1 : Fin 2) * 1 + 1 * (y 1).val = (y 1).val; omega

/-- What point t writes back is its block of the head of the arrays as the region finds them. -/
theorem flushed2 (c : Dev nD) (t : Fin cfg2.N) :
    (dat2 V c).flushed 3 t = ((cfg2.win 3).blk t).view.read (Elt Ideal)
      (head (N := 50000) (feat2 V c) (w2 V c) (bias2 V c)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x1) hz, View.ld_unit_zero (S := S1x1) hz]
  funext y
  obtain ⟨r, j, rfl⟩ : ∃ (r : Fin 5000) (j : Fin 1), y = ix2 r j := ⟨y 0, y 1, eq_ix2 y⟩
  show k2_pay1 (F := Ideal) (b2_0 V c t) (b2_1 V c t) (b2_2 V c t) (ix2 r j)
    = head (N := 50000) (feat2 V c) (w2 V c) (bias2 V c) (((cfg2.win 3).blk t).view.emb (ix2 r j : S5000x1.Idx))
  rw [emb2_3, head_ix2]
  refine (pay2_apply (b2_0 V c t) (b2_1 V c t) (b2_2 V c t) r j).trans ?_
  rw [blk2_1, blk2_2]
  exact headAt_row (feat2 V c) (b2_0 V c t) (w2 V c) (bias2 V c) (row2 t r) r j (fun q => blk2_0 V c t r q)

/-- An index of the output array is in point t's block iff each coordinate is in the block's range. -/
theorem mem_blk2 (t : Fin cfg2.N) (i : S50000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v40).slice (win2_3.rect t)).set ↔ _
  rw [View.set_slice_whole, Rect.mem_set_unit]
  exact Iff.rfl

/-- Every index of the output array is in some point's block: row i is in block i / 5000. -/
theorem cover2 (i : S50000x1.Idx) : ∃ t : Fin cfg2.N, (cfg2.win 3).flush t = true ∧ i ∈ ((cfg2.win 3).blk t).view.set := by
  have hi0 : (i 0).val < 50000 := (i 0).isLt
  have hi1 : (i 1).val < 1 := (i 1).isLt
  have hN : cfg2.N = 10 := N_2
  let t : Fin cfg2.N := ⟨(i 0).val / 5000, by omega⟩
  have ht : t.val = (i 0).val / 5000 := rfl
  obtain ⟨-, -, -, -, -, -, e0, e1⟩ := idx2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 1 ≤ (i 1).val ∧ (i 1).val < win2_3.index t (1 : Fin 2) * 1 + 1; omega

/-- The output array after the region: the head of the arrays as the region finds them. -/
theorem final2 (c : Dev nD) : (dat2 V c).arrAt 3 cfg2.N
    = head (N := 50000) (feat2 V c) (w2 V c) (bias2 V c) :=
  (dat2 V c).arrAt_eq_of_cover 3 _ (fun t _ => flushed2 V c t) cover2

end Cert.KBlocks2

end
-- ==== Proof.KHost.lean ====
/-
  The host operations around the three regions, read as functions.

  Before each layer the program gathers rows of a 50000 × 128 array at the edges' source nodes, adds them up at the
  edges' destination nodes, and divides each node's sum by its in-degree (at least one): the neighbour mean. The source
  and destination lists are the two rows of the edge array; the in-degrees are the sums of ones at the destinations. These
  pieces are named here as they are printed, and never opened: the certificate only needs that the second layer's mean is
  the same function of the first layer's output as the first layer's mean is of the features.

  Then each stretch of host operations is read at the buffers a later region or the return uses: what it computes into
  a buffer as a function of the contents it starts from, and that it leaves the other buffers alone.
-/
import proofs.«161030_j49606872269110_1_alg».proof.Proof.Gen.KernelIdeal.Frame
import Idealize.ShloMosaic.Lib.StableHlo.Run
import Idealize.ShloMosaic.PureOps.Ideal

set_option maxRecDepth 16384

noncomputable section

namespace Cert.KHost

open Cert.KernelIdeal Cert.KernelIdeal.Gen Idealize.ShloMosaic Idealize.ShloMosaic.TcCoe Idealize.SL.Sem Idealize.ShloMosaic.StableHlo

/-- The edges' source nodes: row 0 of the edge array. -/
def srcOf (ei : IVec S2x800000 32) : IVec S800000 32 :=
  shapeCast S800000 (extractStridedSlice S1x800000 ![0, 0] ei slices_S2x800000_S1x800000_0_0) shapeCasts_S1x800000_S800000

/-- The edges' destination nodes: row 1 of the edge array. -/
def dstOf (ei : IVec S2x800000 32) : IVec S800000 32 :=
  shapeCast S800000 (extractStridedSlice S1x800000 ![1, 0] ei slices_S2x800000_S1x800000_1_0) shapeCasts_S1x800000_S800000

/-- Each node's in-degree, at least one, as a column: ones summed at the destinations, the maximum with one. -/
def degOf (dst : IVec S800000 32) : FVec Ideal S50000x1 .f32 :=
  broadcastInDim S50000x1 ![0] bcast_S50000_S50000x1_0
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32)))
      (broadcastInDim S50000 ![] bcast_S_S50000 (constant S_ .f32 0x3F800000#32)))

/-- The neighbour mean of the rows of `h`: rows gathered at the sources (a negative index counted from the end), summed
    at the destinations, each node's sum divided by its degree. -/
def aggMean (h : FVec Ideal S50000x128 .f32) (src dst : IVec S800000 32) (deg : FVec Ideal S50000x1 .f32) :
    FVec Ideal S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 deg)

variable (W : Valuation τ sig (Elt Ideal))

/-! ## The stretch before the first region -/

set_option maxHeartbeats 4000000 in
/-- It leaves the first layer's neighbour mean of the features. -/
theorem host0_v22 : StableHlo.after (hostOps0 (F := Ideal)) W (Proc.devRef .tc main_v22)
    = aggMean (W (Proc.devRef .tc main_arg0)) (srcOf (W (Proc.devRef .tc main_arg1))) (dstOf (W (Proc.devRef .tc main_arg1)))
        (degOf (dstOf (W (Proc.devRef .tc main_arg1)))) := by
  dsimp only [hostOps0]; after_results_simp; rfl

set_option maxHeartbeats 4000000 in
theorem host0_v1 : StableHlo.after (hostOps0 (F := Ideal)) W (Proc.devRef .tc main_v1) = srcOf (W (Proc.devRef .tc main_arg1)) := by
  dsimp only [hostOps0]; after_results_simp; rfl

set_option maxHeartbeats 4000000 in
theorem host0_v3 : StableHlo.after (hostOps0 (F := Ideal)) W (Proc.devRef .tc main_v3) = dstOf (W (Proc.devRef .tc main_arg1)) := by
  dsimp only [hostOps0]; after_results_simp; rfl

set_option maxHeartbeats 4000000 in
theorem host0_v10 : StableHlo.after (hostOps0 (F := Ideal)) W (Proc.devRef .tc main_v10) = degOf (dstOf (W (Proc.devRef .tc main_arg1))) := by
  dsimp only [hostOps0]; after_results_simp; rfl

set_option maxHeartbeats 4000000 in
/-- The first bias as a row. -/
theorem host0_v23 : StableHlo.after (hostOps0 (F := Ideal)) W (Proc.devRef .tc main_v23)
    = shapeCast S1x128 (W (Proc.devRef .tc main_arg3)) shapeCasts_S128_S1x128 := by
  dsimp only [hostOps0]; after_results_simp; rfl

set_option maxHeartbeats 4000000 in
section
theorem keep0_arg0 : StableHlo.after (hostOps0 (F := Ideal)) W (Proc.devRef .tc main_arg0) = W (Proc.devRef .tc main_arg0) := by
  dsimp only [hostOps0]; after_results_simp
theorem keep0_arg2 : StableHlo.after (hostOps0 (F := Ideal)) W (Proc.devRef .tc main_arg2) = W (Proc.devRef .tc main_arg2) := by
  dsimp only [hostOps0]; after_results_simp
theorem keep0_arg4 : StableHlo.after (hostOps0 (F := Ideal)) W (Proc.devRef .tc main_arg4) = W (Proc.devRef .tc main_arg4) := by
  dsimp only [hostOps0]; after_results_simp
theorem keep0_arg5 : StableHlo.after (hostOps0 (F := Ideal)) W (Proc.devRef .tc main_arg5) = W (Proc.devRef .tc main_arg5) := by
  dsimp only [hostOps0]; after_results_simp
theorem keep0_arg6 : StableHlo.after (hostOps0 (F := Ideal)) W (Proc.devRef .tc main_arg6) = W (Proc.devRef .tc main_arg6) := by
  dsimp only [hostOps0]; after_results_simp
theorem keep0_arg7 : StableHlo.after (hostOps0 (F := Ideal)) W (Proc.devRef .tc main_arg7) = W (Proc.devRef .tc main_arg7) := by
  dsimp only [hostOps0]; after_results_simp
theorem keep0_arg8 : StableHlo.after (hostOps0 (F := Ideal)) W (Proc.devRef .tc main_arg8) = W (Proc.devRef .tc main_arg8) := by
  dsimp only [hostOps0]; after_results_simp
theorem keep0_arg9 : StableHlo.after (hostOps0 (F := Ideal)) W (Proc.devRef .tc main_arg9) = W (Proc.devRef .tc main_arg9) := by
  dsimp only [hostOps0]; after_results_simp
end

/-! ## The stretch between the first and the second region -/

set_option maxHeartbeats 4000000 in
/-- It leaves the neighbour mean of the first layer's output, over the same sources, destinations and degrees. -/
theorem host1_v36 : StableHlo.after (hostOps1 (F := Ideal)) W (Proc.devRef .tc main_v36)
    = aggMean (W (Proc.devRef .tc main_v24)) (W (Proc.devRef .tc main_v1)) (W (Proc.devRef .tc main_v3)) (W (Proc.devRef .tc main_v10)) := by
  dsimp only [hostOps1]; after_results_simp; rfl

set_option maxHeartbeats 4000000 in
/-- The second bias as a row. -/
theorem host1_v37 : StableHlo.after (hostOps1 (F := Ideal)) W (Proc.devRef .tc main_v37)
    = shapeCast S1x128 (W (Proc.devRef .tc main_arg6)) shapeCasts_S128_S1x128 := by
  dsimp only [hostOps1]; after_results_simp; rfl

set_option maxHeartbeats 4000000 in
section
theorem keep1_v24 : StableHlo.after (hostOps1 (F := Ideal)) W (Proc.devRef .tc main_v24) = W (Proc.devRef .tc main_v24) := by
  dsimp only [hostOps1]; after_results_simp
theorem keep1_arg5 : StableHlo.after (hostOps1 (F := Ideal)) W (Proc.devRef .tc main_arg5) = W (Proc.devRef .tc main_arg5) := by
  dsimp only [hostOps1]; after_results_simp
theorem keep1_arg7 : StableHlo.after (hostOps1 (F := Ideal)) W (Proc.devRef .tc main_arg7) = W (Proc.devRef .tc main_arg7) := by
  dsimp only [hostOps1]; after_results_simp
theorem keep1_arg8 : StableHlo.after (hostOps1 (F := Ideal)) W (Proc.devRef .tc main_arg8) = W (Proc.devRef .tc main_arg8) := by
  dsimp only [hostOps1]; after_results_simp
theorem keep1_arg9 : StableHlo.after (hostOps1 (F := Ideal)) W (Proc.devRef .tc main_arg9) = W (Proc.devRef .tc main_arg9) := by
  dsimp only [hostOps1]; after_results_simp
end

/-! ## The stretch between the second region and the head -/

/-- The head's bias as a 1 × 1 array. -/
theorem host2_v39 : StableHlo.after (hostOps2 (F := Ideal)) W (Proc.devRef .tc main_v39)
    = shapeCast S1x1 (W (Proc.devRef .tc main_arg9)) shapeCasts_S1_S1x1 := by
  dsimp only [hostOps2]; after_results_simp; rfl

theorem keep2_v38 : StableHlo.after (hostOps2 (F := Ideal)) W (Proc.devRef .tc main_v38) = W (Proc.devRef .tc main_v38) := by
  dsimp only [hostOps2]; after_results_simp
theorem keep2_arg8 : StableHlo.after (hostOps2 (F := Ideal)) W (Proc.devRef .tc main_arg8) = W (Proc.devRef .tc main_arg8) := by
  dsimp only [hostOps2]; after_results_simp

/-! ## The stretch after the head -/

/-- The head's column as a vector. -/
theorem host3_v41 : StableHlo.after (hostOps3 (F := Ideal)) W (Proc.devRef .tc main_v41)
    = shapeCast S50000 (W (Proc.devRef .tc main_v40)) shapeCasts_S50000x1_S50000 := by
  dsimp only [hostOps3]; after_results_simp; rfl

theorem keep3_v38 : StableHlo.after (hostOps3 (F := Ideal)) W (Proc.devRef .tc main_v38) = W (Proc.devRef .tc main_v38) := by
  dsimp only [hostOps3]; after_results_simp

end Cert.KHost

end
-- ==== Proof.KValue.lean ====
/-
  The kernel program's two results as functions of its argument arrays.

  The buffer contents at the program's segment boundaries are a fold through host stretches and regions. Reading that
  fold at the two result buffers, backwards: the first result is the head's column read as a vector; the head's column is
  the head of the second layer's output, the 128 × 1 matrix and the scalar bias; the second layer's output, which no later
  operation writes, is the layer of the neighbour mean of the first layer's output, of that output, and of the second
  weights and bias; and the first layer's output is the layer of the neighbour mean of the features, of the features, and
  of the first weights and bias. The sources, destinations and degrees are computed once, before the first region, and
  read again, unchanged, before the second. Every argument array reaches the region that reads it as it was launched,
  since no operation and no region writes it.
-/
import proofs.«161030_j49606872269110_1_alg».proof.Proof.KBlocks0
import proofs.«161030_j49606872269110_1_alg».proof.Proof.KBlocks1
import proofs.«161030_j49606872269110_1_alg».proof.Proof.KBlocks2
import proofs.«161030_j49606872269110_1_alg».proof.Proof.KHost

set_option maxRecDepth 16384

noncomputable section

namespace Cert.KValue

open Cert.KernelIdeal Cert.KernelIdeal.Gen Idealize.ShloMosaic Idealize.ShloMosaic.TcCoe Idealize.SL.Sem
open Cert.Spec Cert.KHost

/-- Equal operands give equal layers. -/
theorem layer_congr {mean mean' x x' : S50000x128.Idx → EReal} {Wl Wl' Wr Wr' : S128x128.Idx → EReal} {b b' : S1x128.Idx → EReal}
    (h0 : mean = mean') (h1 : x = x') (h2 : Wl = Wl') (h3 : Wr = Wr') (h4 : b = b') :
    layer (N := 50000) mean x Wl Wr b = layer (N := 50000) mean' x' Wl' Wr' b' := by
  rw [h0, h1, h2, h3, h4]

/-- Equal operands give equal heads. -/
theorem head_congr {h h' : S50000x128.Idx → EReal} {W W' : S128x1.Idx → EReal} {b b' : S1x1.Idx → EReal}
    (h0 : h = h') (h1 : W = W') (h2 : b = b') : head (N := 50000) h W b = head (N := 50000) h' W' b' := by
  rw [h0, h1, h2]

/-- Equal operands give equal neighbour means. -/
theorem aggMean_congr {h h' : FVec Ideal S50000x128 .f32} {s s' d d' : IVec S800000 32} {g g' : FVec Ideal S50000x1 .f32}
    (h0 : h = h') (h1 : s = s') (h2 : d = d') (h3 : g = g') : aggMean h s d g = aggMean h' s' d' g' := by
  rw [h0, h1, h2, h3]

variable (m : (ℓ : Loc nD τ sig) → Buf (Elt Ideal) ℓ) (ρ : Dev nD → PrngReg) (c : Dev nD)

/-! ## The results, named -/

/-- The sources, destinations and degrees of the launch's edge array. -/
abbrev src : IVec S800000 32 := srcOf (m ((c.tc : Thread nD τ).loc main_arg1))
abbrev dst : IVec S800000 32 := dstOf (m ((c.tc : Thread nD τ).loc main_arg1))
abbrev deg : FVec Ideal S50000x1 .f32 := degOf (dst m c)

/-- The first layer's output. -/
def h1 : S50000x128.Idx → EReal :=
  layer (N := 50000) (aggMean (m ((c.tc : Thread nD τ).loc main_arg0)) (src m c) (dst m c) (deg m c))
    (m ((c.tc : Thread nD τ).loc main_arg0)) (m ((c.tc : Thread nD τ).loc main_arg2)) (m ((c.tc : Thread nD τ).loc main_arg4))
    (shapeCast S1x128 (m ((c.tc : Thread nD τ).loc main_arg3)) shapeCasts_S128_S1x128)

/-- The second layer's output. -/
def h2 : S50000x128.Idx → EReal :=
  layer (N := 50000) (aggMean (h1 m c) (src m c) (dst m c) (deg m c)) (h1 m c)
    (m ((c.tc : Thread nD τ).loc main_arg5)) (m ((c.tc : Thread nD τ).loc main_arg7))
    (shapeCast S1x128 (m ((c.tc : Thread nD τ).loc main_arg6)) shapeCasts_S128_S1x128)

/-- The head's column. -/
def col : S50000x1.Idx → EReal :=
  head (N := 50000) (h2 m c) (m ((c.tc : Thread nD τ).loc main_arg8))
    (shapeCast S1x1 (m ((c.tc : Thread nD τ).loc main_arg9)) shapeCasts_S1_S1x1)

/-! ## Before the first region -/

theorem V1_v22 : (V1 m ρ c main_v22 : S50000x128.Idx → EReal)
    = aggMean (m ((c.tc : Thread nD τ).loc main_arg0)) (src m c) (dst m c) (deg m c) := host0_v22 (W0 m ρ c)
theorem V1_arg0 : (V1 m ρ c main_arg0 : S50000x128.Idx → EReal) = m ((c.tc : Thread nD τ).loc main_arg0) := keep0_arg0 (W0 m ρ c)
theorem V1_arg2 : (V1 m ρ c main_arg2 : S128x128.Idx → EReal) = m ((c.tc : Thread nD τ).loc main_arg2) := keep0_arg2 (W0 m ρ c)
theorem V1_arg4 : (V1 m ρ c main_arg4 : S128x128.Idx → EReal) = m ((c.tc : Thread nD τ).loc main_arg4) := keep0_arg4 (W0 m ρ c)
theorem V1_v23 : (V1 m ρ c main_v23 : S1x128.Idx → EReal)
    = shapeCast S1x128 (m ((c.tc : Thread nD τ).loc main_arg3)) shapeCasts_S128_S1x128 := host0_v23 (W0 m ρ c)

/-! ## After the first region -/

/-- The first region leaves the first layer's output. -/
theorem W2_v24 : (W2 m ρ c (Proc.devRef .tc main_v24) : S50000x128.Idx → EReal) = h1 m c :=
  (W2_arr m ρ c 5).trans ((Cert.KBlocks0.final0 (V1 m ρ) c).trans
    (layer_congr (V1_v22 m ρ c) (V1_arg0 m ρ c) (V1_arg2 m ρ c) (V1_arg4 m ρ c) (V1_v23 m ρ c)))

theorem W2_v1 : (W2 m ρ c (Proc.devRef .tc main_v1) : IVec S800000 32) = src m c :=
  (W2_of_ne m ρ c main_v1 (by decide)).trans (host0_v1 (W0 m ρ c))
theorem W2_v3 : (W2 m ρ c (Proc.devRef .tc main_v3) : IVec S800000 32) = dst m c :=
  (W2_of_ne m ρ c main_v3 (by decide)).trans (host0_v3 (W0 m ρ c))
theorem W2_v10 : (W2 m ρ c (Proc.devRef .tc main_v10) : FVec Ideal S50000x1 .f32) = deg m c :=
  (W2_of_ne m ρ c main_v10 (by decide)).trans (host0_v10 (W0 m ρ c))
theorem W2_arg5 : (W2 m ρ c (Proc.devRef .tc main_arg5) : S128x128.Idx → EReal) = m ((c.tc : Thread nD τ).loc main_arg5) :=
  (W2_of_ne m ρ c main_arg5 (by decide)).trans (keep0_arg5 (W0 m ρ c))
theorem W2_arg6 : (W2 m ρ c (Proc.devRef .tc main_arg6) : S128.Idx → EReal) = m ((c.tc : Thread nD τ).loc main_arg6) :=
  (W2_of_ne m ρ c main_arg6 (by decide)).trans (keep0_arg6 (W0 m ρ c))
theorem W2_arg7 : (W2 m ρ c (Proc.devRef .tc main_arg7) : S128x128.Idx → EReal) = m ((c.tc : Thread nD τ).loc main_arg7) :=
  (W2_of_ne m ρ c main_arg7 (by decide)).trans (keep0_arg7 (W0 m ρ c))
theorem W2_arg8 : (W2 m ρ c (Proc.devRef .tc main_arg8) : S128x1.Idx → EReal) = m ((c.tc : Thread nD τ).loc main_arg8) :=
  (W2_of_ne m ρ c main_arg8 (by decide)).trans (keep0_arg8 (W0 m ρ c))
theorem W2_arg9 : (W2 m ρ c (Proc.devRef .tc main_arg9) : S1.Idx → EReal) = m ((c.tc : Thread nD τ).loc main_arg9) :=
  (W2_of_ne m ρ c main_arg9 (by decide)).trans (keep0_arg9 (W0 m ρ c))

/-! ## Before the second region -/

theorem V3_v36 : (V3 m ρ c main_v36 : S50000x128.Idx → EReal) = aggMean (h1 m c) (src m c) (dst m c) (deg m c) :=
  (host1_v36 (W2 m ρ c)).trans (aggMean_congr (W2_v24 m ρ c) (W2_v1 m ρ c) (W2_v3 m ρ c) (W2_v10 m ρ c))
theorem V3_v24 : (V3 m ρ c main_v24 : S50000x128.Idx → EReal) = h1 m c := (keep1_v24 (W2 m ρ c)).trans (W2_v24 m ρ c)
theorem V3_arg5 : (V3 m ρ c main_arg5 : S128x128.Idx → EReal) = m ((c.tc : Thread nD τ).loc main_arg5) :=
  (keep1_arg5 (W2 m ρ c)).trans (W2_arg5 m ρ c)
theorem V3_arg7 : (V3 m ρ c main_arg7 : S128x128.Idx → EReal) = m ((c.tc : Thread nD τ).loc main_arg7) :=
  (keep1_arg7 (W2 m ρ c)).trans (W2_arg7 m ρ c)
theorem V3_v37 : (V3 m ρ c main_v37 : S1x128.Idx → EReal)
    = shapeCast S1x128 (m ((c.tc : Thread nD τ).loc main_arg6)) shapeCasts_S128_S1x128 :=
  (host1_v37 (W2 m ρ c)).trans (congrArg (fun b : S128.Idx → EReal => shapeCast S1x128 b shapeCasts_S128_S1x128) (W2_arg6 m ρ c))

/-! ## After the second region -/

/-- The second region leaves the second layer's output. -/
theorem W4_v38 : (W4 m ρ c (Proc.devRef .tc main_v38) : S50000x128.Idx → EReal) = h2 m c :=
  (W4_arr m ρ c 5).trans ((Cert.KBlocks1.final1 (V3 m ρ) c).trans
    (layer_congr (V3_v36 m ρ c) (V3_v24 m ρ c) (V3_arg5 m ρ c) (V3_arg7 m ρ c) (V3_v37 m ρ c)))

theorem W4_arg8 : (W4 m ρ c (Proc.devRef .tc main_arg8) : S128x1.Idx → EReal) = m ((c.tc : Thread nD τ).loc main_arg8) :=
  (W4_of_ne m ρ c main_arg8 (by decide)).trans ((keep1_arg8 (W2 m ρ c)).trans (W2_arg8 m ρ c))
theorem W4_arg9 : (W4 m ρ c (Proc.devRef .tc main_arg9) : S1.Idx → EReal) = m ((c.tc : Thread nD τ).loc main_arg9) :=
  (W4_of_ne m ρ c main_arg9 (by decide)).trans ((keep1_arg9 (W2 m ρ c)).trans (W2_arg9 m ρ c))

/-! ## Before the head -/

theorem V5_v38 : (V5 m ρ c main_v38 : S50000x128.Idx → EReal) = h2 m c := (keep2_v38 (W4 m ρ c)).trans (W4_v38 m ρ c)
theorem V5_arg8 : (V5 m ρ c main_arg8 : S128x1.Idx → EReal) = m ((c.tc : Thread nD τ).loc main_arg8) :=
  (keep2_arg8 (W4 m ρ c)).trans (W4_arg8 m ρ c)
theorem V5_v39 : (V5 m ρ c main_v39 : S1x1.Idx → EReal)
    = shapeCast S1x1 (m ((c.tc : Thread nD τ).loc main_arg9)) shapeCasts_S1_S1x1 :=
  (host2_v39 (W4 m ρ c)).trans (congrArg (fun b : S1.Idx → EReal => shapeCast S1x1 b shapeCasts_S1_S1x1) (W4_arg9 m ρ c))

/-! ## After the head -/

/-- The head's region leaves the head's column. -/
theorem W6_v40 : (W6 m ρ c (Proc.devRef .tc main_v40) : S50000x1.Idx → EReal) = col m c :=
  (W6_arr m ρ c 3).trans ((Cert.KBlocks2.final2 (V5 m ρ) c).trans
    (head_congr (V5_v38 m ρ c) (V5_arg8 m ρ c) (V5_v39 m ρ c)))

/-- It reads the second layer's output and leaves it as it found it. -/
theorem W6_v38 : (W6 m ρ c (Proc.devRef .tc main_v38) : S50000x128.Idx → EReal) = h2 m c :=
  (W6_arr m ρ c 0).trans (((dat2 (V5 m ρ) c).arrAt_in 0 rfl _).trans ((A_eq2 (V5 m ρ) c 0).trans (V5_v38 m ρ c)))

/-! ## At the return -/

/-- The first result: the head's column read as a vector. -/
theorem W7_v41 : (W7 m ρ c (Proc.devRef .tc main_v41) : S50000.Idx → EReal)
    = shapeCast S50000 (col m c) shapeCasts_S50000x1_S50000 :=
  (host3_v41 (W6 m ρ c)).trans (congrArg (fun b : S50000x1.Idx → EReal => shapeCast S50000 b shapeCasts_S50000x1_S50000) (W6_v40 m ρ c))

/-- The second result: the second layer's output. -/
theorem W7_v38 : (W7 m ρ c (Proc.devRef .tc main_v38) : S50000x128.Idx → EReal) = h2 m c :=
  (keep3_v38 (W6 m ρ c)).trans (W6_v38 m ρ c)

end Cert.KValue

end
-- ==== Proof.RefSide.lean ====
/-
  The reference's two results as functions of its argument arrays.

  The reference computes, twice over, the neighbour mean of a 50000 × 128 array (rows gathered at the edges' sources,
  summed at their destinations, divided by the in-degree), the sum  mean·Wl + b + x·Wr  with the bias row laid along every
  row, and the maximum with zero; then one more product with a 128 × 1 matrix plus a scalar bias, read as a vector.

  Its generated run states each result as one composed term of the arguments. That term is restated here through the
  neighbour-mean chain (named, never opened) and through the layer and the head read entry by entry: the two products
  are sums over the contracted axis, the bias broadcast reads the bias's entry j at every (i, j), and the three
  summands, which the reference adds as (a + b) + c with the bias in the middle, are the layer's (a + c) + b because
  addition of extended reals is commutative and associative.
-/
import proofs.«161030_j49606872269110_1_alg».proof.Proof.Gen.ReferenceIdeal.Run
import proofs.«161030_j49606872269110_1_alg».proof.Proof.Spec

set_option maxRecDepth 16384

noncomputable section

open scoped BigOperators

namespace Cert.RefSide

open Cert.ReferenceIdeal Cert.ReferenceIdeal.Gen Idealize.ShloMosaic Idealize.ShloMosaic.TcCoe Idealize.SL.Sem
open Idealize.ShloMosaic.ValueIdx Cert.Spec

/-- The edges' source nodes: row 0 of the edge array. -/
def srcOf (ei : IVec S2x800000 32) : IVec S800000 32 :=
  shapeCast S800000 (extractStridedSlice S1x800000 ![0, 0] ei slices_S2x800000_S1x800000_0_0) shapeCasts_S1x800000_S800000

/-- The edges' destination nodes: row 1 of the edge array. -/
def dstOf (ei : IVec S2x800000 32) : IVec S800000 32 :=
  shapeCast S800000 (extractStridedSlice S1x800000 ![1, 0] ei slices_S2x800000_S1x800000_1_0) shapeCasts_S1x800000_S800000

/-- Each node's in-degree, at least one, as a column. -/
def degOf (dst : IVec S800000 32) : FVec Ideal S50000x1 .f32 :=
  broadcastInDim S50000x1 ![0] bcast_S50000_S50000x1_0
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32)))
      (broadcastInDim S50000 ![] bcast_S_S50000 (constant S_ .f32 0x3F800000#32)))

/-- The neighbour mean of the rows of `h`. -/
def aggMean (h : FVec Ideal S50000x128 .f32) (src dst : IVec S800000 32) (deg : FVec Ideal S50000x1 .f32) :
    FVec Ideal S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 deg)

/-- One layer as the reference spells it: mean·Wl, plus the bias along every row, plus x·Wr, the maximum with zero. -/
def layerR (mean x : FVec Ideal S50000x128 .f32) (Wl : FVec Ideal S128x128 .f32) (b : FVec Ideal S128 .f32)
    (Wr : FVec Ideal S128x128 .f32) : FVec Ideal S50000x128 .f32 :=
  maximumf
    (addf
      (addf (Host.dotGeneral dot_S50000x128_S128x128_S50000x128_1_0_0_1_n_n none mean Wl)
        (broadcastInDim S50000x128 ![0, 1] bcast_S1x128_S50000x128_0_1 (broadcastInDim S1x128 ![1] bcast_S128_S1x128_1 b)))
      (Host.dotGeneral dot_S50000x128_S128x128_S50000x128_1_0_0_1_n_n none x Wr))
    (broadcastInDim S50000x128 ![] bcast_S_S50000x128 (constant S_ .f32 0x00000000#32))

/-- The head as the reference spells it. -/
def headR (h : FVec Ideal S50000x128 .f32) (W : FVec Ideal S128x1 .f32) (b : FVec Ideal S1 .f32) : FVec Ideal S50000x1 .f32 :=
  addf (Host.dotGeneral dot_S50000x128_S128x1_S50000x1_1_0_0_1_n_n none h W)
    (broadcastInDim S50000x1 ![0, 1] bcast_S1x1_S50000x1_0_1 (broadcastInDim S1x1 ![1] bcast_S1_S1x1_1 b))

/-! ## The run's terms, restated -/

section Terms

variable (m : (ℓ : Loc nD τ sig) → Buf (Elt Ideal) ℓ) (c : Dev nD)

/-- The sources, destinations and degrees of the launch's edge array. -/
abbrev src : IVec S800000 32 := srcOf (m ((c.tc : Thread nD τ).loc main_arg1))
abbrev dst : IVec S800000 32 := dstOf (m ((c.tc : Thread nD τ).loc main_arg1))
abbrev deg : FVec Ideal S50000x1 .f32 := degOf (dst m c)

/-- The first layer's output. -/
def h1 : FVec Ideal S50000x128 .f32 :=
  layerR (aggMean (m ((c.tc : Thread nD τ).loc main_arg0)) (src m c) (dst m c) (deg m c)) (m ((c.tc : Thread nD τ).loc main_arg0))
    (m ((c.tc : Thread nD τ).loc main_arg2)) (m ((c.tc : Thread nD τ).loc main_arg3)) (m ((c.tc : Thread nD τ).loc main_arg4))

/-- The second layer's output. -/
def h2 : FVec Ideal S50000x128 .f32 :=
  layerR (aggMean (h1 m c) (src m c) (dst m c) (deg m c)) (h1 m c)
    (m ((c.tc : Thread nD τ).loc main_arg5)) (m ((c.tc : Thread nD τ).loc main_arg6)) (m ((c.tc : Thread nD τ).loc main_arg7))

set_option maxHeartbeats 4000000 in
/-- The run's second result is the second layer's output. -/
theorem res_out1_eq : Cert.ReferenceIdeal.Value.res_out1 (F := Ideal) m c = h2 m c := by
  unfold Cert.ReferenceIdeal.Value.res_out1 Cert.ReferenceIdeal.Value.res_main_v55 h2 h1 layerR aggMean
  rfl

set_option maxHeartbeats 4000000 in
/-- The run's first result is the head of the second layer's output, as a vector. -/
theorem res_out0_eq : Cert.ReferenceIdeal.Value.res_out0 (F := Ideal) m c
    = shapeCast S50000 (headR (h2 m c) (m ((c.tc : Thread nD τ).loc main_arg8)) (m ((c.tc : Thread nD τ).loc main_arg9))) shapeCasts_S50000x1_S50000 := by
  unfold Cert.ReferenceIdeal.Value.res_out0 Cert.ReferenceIdeal.Value.res_main_v60 headR h2 h1 layerR aggMean
  rfl

end Terms

/-! ## The layer and the head, entry by entry -/

/-- The reference's products are the plain ones. -/
theorem dotWhole : dot_S50000x128_S128x128_S50000x128_1_0_0_1_n_n = DotDims.plain 50000 128 128 := rfl
theorem dotCol : dot_S50000x128_S128x1_S50000x1_1_0_0_1_n_n = DotDims.plain 50000 128 1 := rfl

/-- The host's 50000 × 128 by 128 × 128 product at entry (i, j). -/
theorem whole_dg {φ₁ φ₂ : FTy} (A : FVec Ideal S50000x128 φ₁) (B : FVec Ideal S128x128 φ₂) (i : Fin 50000) (j : Fin 128) :
    Host.dotGeneral (DotDims.plain 50000 128 128) none A B (ix2 i j) = ∑ q : Fin 128, A (ix2 i q) * B (ix2 q j) :=
  LibDotPlain.dotGeneral_plain 50000 128 128 none .single A B i j

/-- The host's 50000 × 128 by 128 × 1 product at entry (i, j). -/
theorem col_dg {φ₁ φ₂ : FTy} (A : FVec Ideal S50000x128 φ₁) (B : FVec Ideal S128x1 φ₂) (i : Fin 50000) (j : Fin 1) :
    Host.dotGeneral (DotDims.plain 50000 128 1) none A B (ix2 i j) = ∑ q : Fin 128, A (ix2 i q) * B (ix2 q j) :=
  LibDotPlain.dotGeneral_plain 50000 128 1 none .single A B i j

/-- The reference's layer is the layer: its bias, added between the two products, may as well be added last. -/
theorem layerR_eq (mean x : FVec Ideal S50000x128 .f32) (Wl : FVec Ideal S128x128 .f32) (b : FVec Ideal S128 .f32)
    (Wr : FVec Ideal S128x128 .f32) : layerR mean x Wl b Wr = layer (N := 50000) mean x Wl Wr (rowOf b) := by
  funext e
  obtain ⟨i, j, rfl⟩ : ∃ (i : Fin 50000) (j : Fin 128), e = ix2 i j := ⟨e 0, e 1, eq_ix2 e⟩
  rw [layer_ix2]
  unfold layerR layerAt prod
  rw [maximumf_apply, addf_apply, addf_apply, dotWhole, whole_dg, whole_dg, broadcastInDim_oneRow_apply,
    broadcastInDim_eq_rowOf, rowOf_ix2, broadcastInDim_scalar_apply, add_right_comm]
  rfl

/-- The reference's head is the head. -/
theorem headR_eq (h : FVec Ideal S50000x128 .f32) (W : FVec Ideal S128x1 .f32) (b : FVec Ideal S1 .f32) :
    headR h W b = head (N := 50000) h W (rowOf b) := by
  funext e
  obtain ⟨i, j, rfl⟩ : ∃ (i : Fin 50000) (j : Fin 1), e = ix2 i j := ⟨e 0, e 1, eq_ix2 e⟩
  rw [head_ix2]
  unfold headR headAt prod
  rw [addf_apply, dotCol, col_dg, broadcastInDim_oneRow_apply, broadcastInDim_eq_rowOf]

end Cert.RefSide

end
-- ==== Proof.Bridge.lean ====
/-
  The two programs compute one function of the ten argument arrays.

  Both programs' results are written here as functions of the arrays alone. On the kernel's side a layer is the layer
  function applied to the neighbour mean, the features, the two weight matrices and the bias reshaped to a row; on the
  reference's side it is the reference's own spelling, which is the same layer function with the bias broadcast to a row.
  The neighbour-mean chain is spelt identically in the two programs (the same gather, the same two scatter-adds, the same
  division), so the two spellings are one function; and a vector reshaped to a row and the vector broadcast to a row are
  the same row. Hence layer by layer, and then for the head, the two sides agree for every choice of the arrays.
-/
import proofs.«161030_j49606872269110_1_alg».proof.Proof.KValue
import proofs.«161030_j49606872269110_1_alg».proof.Proof.RefSide

set_option maxRecDepth 16384

noncomputable section

namespace Cert.Bridge

open Idealize.ShloMosaic Idealize.ShloMosaic.TcCoe Idealize.SL.Sem Cert.Spec

/-! ## The neighbour-mean chain is one function in the two programs -/

theorem srcOf_eq (ei : IVec Cert.ReferenceIdeal.S2x800000 32) : Cert.RefSide.srcOf ei = Cert.KHost.srcOf ei := rfl
theorem dstOf_eq (ei : IVec Cert.ReferenceIdeal.S2x800000 32) : Cert.RefSide.dstOf ei = Cert.KHost.dstOf ei := rfl
theorem degOf_eq (d : IVec Cert.ReferenceIdeal.S800000 32) : Cert.RefSide.degOf d = Cert.KHost.degOf d := rfl
theorem aggMean_eq (h : FVec Ideal Cert.ReferenceIdeal.S50000x128 .f32) (s d : IVec Cert.ReferenceIdeal.S800000 32)
    (g : FVec Ideal Cert.ReferenceIdeal.S50000x1 .f32) : Cert.RefSide.aggMean h s d g = Cert.KHost.aggMean h s d g := rfl

section Arrays

open Cert.KernelIdeal Cert.KernelIdeal.Gen

variable (x : S50000x128.Idx → EReal) (ei : IVec S2x800000 32)
  (Wl1 : S128x128.Idx → EReal) (b1 : S128.Idx → EReal) (Wr1 : S128x128.Idx → EReal)
  (Wl2 : S128x128.Idx → EReal) (b2 : S128.Idx → EReal) (Wr2 : S128x128.Idx → EReal)
  (Wo : S128x1.Idx → EReal) (bo : S1.Idx → EReal)

/-! ## The kernel's side -/

/-- The first layer's output, from the arrays. -/
def k1 : S50000x128.Idx → EReal :=
  layer (N := 50000) (Cert.KHost.aggMean x (Cert.KHost.srcOf ei) (Cert.KHost.dstOf ei) (Cert.KHost.degOf (Cert.KHost.dstOf ei)))
    x Wl1 Wr1 (shapeCast S1x128 b1 shapeCasts_S128_S1x128)

/-- The second layer's output, from the arrays. -/
def k2 : S50000x128.Idx → EReal :=
  layer (N := 50000)
    (Cert.KHost.aggMean (k1 x ei Wl1 b1 Wr1) (Cert.KHost.srcOf ei) (Cert.KHost.dstOf ei) (Cert.KHost.degOf (Cert.KHost.dstOf ei)))
    (k1 x ei Wl1 b1 Wr1) Wl2 Wr2 (shapeCast S1x128 b2 shapeCasts_S128_S1x128)

/-- The head's column, from the arrays. -/
def kcol : S50000x1.Idx → EReal :=
  head (N := 50000) (k2 x ei Wl1 b1 Wr1 Wl2 b2 Wr2) Wo (shapeCast S1x1 bo shapeCasts_S1_S1x1)

/-! ## The reference's side -/

/-- The first layer's output as the reference spells it. -/
def r1 : S50000x128.Idx → EReal :=
  Cert.RefSide.layerR
    (Cert.RefSide.aggMean x (Cert.RefSide.srcOf ei) (Cert.RefSide.dstOf ei) (Cert.RefSide.degOf (Cert.RefSide.dstOf ei)))
    x Wl1 b1 Wr1

/-- The second layer's output as the reference spells it. -/
def r2 : S50000x128.Idx → EReal :=
  Cert.RefSide.layerR
    (Cert.RefSide.aggMean (r1 x ei Wl1 b1 Wr1) (Cert.RefSide.srcOf ei) (Cert.RefSide.dstOf ei) (Cert.RefSide.degOf (Cert.RefSide.dstOf ei)))
    (r1 x ei Wl1 b1 Wr1) Wl2 b2 Wr2

/-- The head's column as the reference spells it. -/
def rcol : S50000x1.Idx → EReal := Cert.RefSide.headR (r2 x ei Wl1 b1 Wr1 Wl2 b2 Wr2) Wo bo

/-! ## They agree -/

/-- The first layer. -/
theorem r1_eq : r1 x ei Wl1 b1 Wr1 = k1 x ei Wl1 b1 Wr1 := by
  unfold r1 k1
  rw [Cert.RefSide.layerR_eq, aggMean_eq, srcOf_eq, dstOf_eq, degOf_eq]
  exact congrArg (layer (N := 50000) _ x Wl1 Wr1) (shapeCast_eq_rowOf b1 shapeCasts_S128_S1x128).symm

/-- The second layer. -/
theorem r2_eq : r2 x ei Wl1 b1 Wr1 Wl2 b2 Wr2 = k2 x ei Wl1 b1 Wr1 Wl2 b2 Wr2 := by
  unfold r2 k2
  rw [Cert.RefSide.layerR_eq, aggMean_eq, srcOf_eq, dstOf_eq, degOf_eq, r1_eq]
  exact congrArg (layer (N := 50000) _ _ Wl2 Wr2) (shapeCast_eq_rowOf b2 shapeCasts_S128_S1x128).symm

/-- The head. -/
theorem rcol_eq : rcol x ei Wl1 b1 Wr1 Wl2 b2 Wr2 Wo bo = kcol x ei Wl1 b1 Wr1 Wl2 b2 Wr2 Wo bo := by
  unfold rcol kcol
  rw [Cert.RefSide.headR_eq, r2_eq]
  exact congrArg (head (N := 50000) _ Wo) (shapeCast_eq_rowOf bo shapeCasts_S1_S1x1).symm

end Arrays

/-! ## The two programs' results as those functions of the launch memories -/

section Kernel
open Cert.KernelIdeal Cert.KernelIdeal.Gen
variable (m : (ℓ : Loc nD τ sig) → Buf (Elt Ideal) ℓ) (c : Dev nD)

theorem kernel_h2 : Cert.KValue.h2 m c = k2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

theorem kernel_col : Cert.KValue.col m c
    = kcol (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl
end Kernel

section Reference
open Cert.ReferenceIdeal
variable (m : (ℓ : Loc nD τ sig) → Buf (Elt Ideal) ℓ) (c : Dev nD)

theorem reference_h2 : Cert.RefSide.h2 m c = r2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

theorem reference_col : Cert.RefSide.headR (Cert.RefSide.h2 m c) (m ((c.tc : Thread nD τ).loc main_arg8)) (m ((c.tc : Thread nD τ).loc main_arg9))
    = rcol (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl
end Reference

end Cert.Bridge

end
-- ==== Proof.lean ====
/-
  Two graph-convolution layers and a linear head, tiled over the nodes, against the same network written with whole-array
  operations.

  Both programs first form, for every node, the mean of the feature rows of its in-neighbours (rows gathered at the
  edges' sources, summed at their destinations, divided by the in-degree or by one). A layer then maps the means and the
  features to  max(mean·Wl + x·Wr + b, 0);  the second layer repeats this on the first layer's output, and the head is one
  more product with a 128 × 1 matrix plus a scalar.

  The tiled program computes each layer in ten blocks of 5000 nodes. An entry of a layer depends on one row of the means
  and one row of the features, so a block's result is the corresponding block of the whole layer, and the ten blocks
  cover all 50000 nodes. It casts the operands of its products to a narrower float format, which changes nothing over the
  extended reals, and it adds the bias after the second product where the whole-array program adds it between the two;
  addition of extended reals being commutative and associative, the sums are equal, with no appeal to finiteness. The
  neighbour means are computed by the same operations in both programs and are never opened here.

  The three runs: each tiled program's run is its frame; the whole-array program's run is its operations' composed term.
  The idealization rewrote nothing, so that claim is trivial.
-/
import proofs.«161030_j49606872269110_1_alg».proof.Defs
import proofs.«161030_j49606872269110_1_alg».proof.Proof.Gen.Kernel
import proofs.«161030_j49606872269110_1_alg».proof.Proof.Gen.Kernel.Frame
import proofs.«161030_j49606872269110_1_alg».proof.Proof.Gen.KernelIdeal
import proofs.«161030_j49606872269110_1_alg».proof.Proof.Gen.KernelIdeal.Frame
import proofs.«161030_j49606872269110_1_alg».proof.Proof.Gen.ReferenceIdeal
import proofs.«161030_j49606872269110_1_alg».proof.Proof.Gen.ReferenceIdeal.Run
import proofs.«161030_j49606872269110_1_alg».proof.Proof.Gen.Pre_finite_inputs
import proofs.«161030_j49606872269110_1_alg».proof.Proof.KRun
import proofs.«161030_j49606872269110_1_alg».proof.Proof.KValue
import proofs.«161030_j49606872269110_1_alg».proof.Proof.RefSide
import proofs.«161030_j49606872269110_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The tiled program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The whole-array program runs and keeps its arguments: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten. -/
theorem preserves : Cert.preserves_Kernel_KernelIdeal := trivial

/-- From memories that agree on the ten arguments both programs end with the head's column, read as a vector, and the
    second layer's output: the tiled program's by its blocks, the whole-array program's by its composed term, and the two
    are one function of the arrays. -/
theorem algebraic : Cert.algebraic_KernelIdeal_ReferenceIdeal := by
  intro m ρ m' ρ' _ hagree
  refine ⟨fun c => shapeCast Cert.KernelIdeal.S50000 (Cert.KValue.col m c) Cert.KernelIdeal.Gen.shapeCasts_S50000x1_S50000,
    fun c => Cert.KValue.h2 m c, ?_, ?_⟩
  · exact (θ_run Cert.KernelIdeal.defs _ _).mono
      (fun _ h c => ⟨(h c).1.trans (Cert.KValue.W7_v41 m ρ c), (h c).2.1.trans (Cert.KValue.W7_v38 m ρ c), (h c).2.2⟩)
      (Cert.KernelIdeal.KRun.run_results (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨a0, a1, a2, a3, a4, a5, a6, a7, a8, a9⟩ := hagree c
      refine (Cert.RefSide.res_out0_eq m' c).trans ?_
      beta_reduce
      rw [Cert.Bridge.reference_col, Cert.Bridge.kernel_col, a0, a1, a2, a3, a4, a5, a6, a7, a8, a9, Cert.Bridge.rcol_eq]
    · obtain ⟨a0, a1, a2, a3, a4, a5, a6, a7, a8, a9⟩ := hagree c
      refine (Cert.RefSide.res_out1_eq m' c).trans ?_
      beta_reduce
      rw [Cert.Bridge.reference_h2, Cert.Bridge.kernel_h2, a0, a1, a2, a3, a4, a5, a6, a7, Cert.Bridge.r2_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
